-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_64000000" .f32 0x328637BD#32 ((1 / 64000000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x16 : Shape := ⟨2, ![4000000, 16]⟩
abbrev S4000000 : Shape := ⟨1, ![4000000]⟩
abbrev S_ : Shape := ⟨0, ![]⟩

class Facts : Prop where
  bcast_S_S4000000x16 : S_.BroadcastsInDim S4000000x16 (![] : Fin 0 → Fin S4000000x16.rank)
  reducesTo_S4000000x16_S_d0_1 : S4000000x16.ReducesTo [0, 1] S_
  h_S_ : 0 < S_.numel

variable [Facts]

def fn {F : FTy → Type} [FloatOps F] (main_arg0 : FVec F S4000000x16 .f32) (main_arg1 : IVec S4000000 32) : IVec S_ 1 :=
  let main_v0 : FVec F S4000000x16 .f32 := Host.absf main_arg0
  let main_cst : FVec F S_ .f32 := constant S_ .f32 0x7F800000#32
  let main_v1 : FVec F S4000000x16 .f32 := broadcastInDim S4000000x16 ![] bcast_S_S4000000x16 main_cst
  let main_v2 : IVec S4000000x16 1 := cmpf .olt main_v0 main_v1
  let main_c : IVec S_ 1 := constantI S_ 1 1#1
  let main_v3 : IVec S_ 1 := (fun x v => Host.reduce IntOp.andi x v reducesTo_S4000000x16_S_d0_1 h_S_) main_v2 main_c
  main_v3
-- ==== Kernel.lean ====
abbrev S4000000x16 : Shape := ⟨2, ![4000000, 16]⟩
abbrev S4000000 : Shape := ⟨1, ![4000000]⟩
abbrev S1x1 : Shape := ⟨2, ![1, 1]⟩
abbrev S50000x16 : Shape := ⟨2, ![50000, 16]⟩
abbrev S50000 : Shape := ⟨1, ![50000]⟩
abbrev S50000x1 : Shape := ⟨2, ![50000, 1]⟩
abbrev S1 : Shape := ⟨1, ![1]⟩
abbrev S_ : Shape := ⟨0, ![]⟩

abbrev nBuf : Space → Nat
  | .hbm => 6
  | .vmem => 4
  | .smem => 0
  | _ => 0

abbrev bufTy : (tb : Table) → Fin (tcTables nBuf tb) → BufTy
  | .hbm, ⟨0, _⟩ => ⟨S4000000x16, .f32⟩
  | .hbm, ⟨1, _⟩ => ⟨S4000000, .i32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S50000x16, .f32⟩
  | .local _ .vmem, ⟨1, _⟩ => ⟨S50000x16, .f32⟩
  | .local _ .vmem, ⟨2, _⟩ => ⟨S1x1, .f32⟩
  | .local _ .vmem, ⟨3, _⟩ => ⟨S1x1, .f32⟩
  | _, _ => ⟨S4000000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S50000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S50000x16_S50000x16_0_0 : ∀ a, (![0, 0] : Fin 2 → Nat) a + S50000x16.size a ≤ S50000x16.size a
  h_S50000x16 : 0 < S50000x16.numel
  reduces_S50000x16_S50000 : S50000x16.Reduces [1] S50000
  shapeCasts_S50000_S50000x1 : S50000.ShapeCasts S50000x1
  broadcasts_S50000x1_S50000x16 : S50000x1.Broadcasts S50000x16
  reduces_S50000x1_S1 : S50000x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S50000x16.size a ≤ S4000000x16.size a
  hwx0_0 : ∀ i : grid0.Coords, EltTy.bits .f32 = 32 ∨ (Rect.block (s := S4000000x16) S50000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

abbrev win0_0 : Pipeline.Window sig grid0 :=
  Pipeline.Window.ofSpec (Memref.whole main_arg0) S50000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4000000x16 : Shape := ⟨2, ![4000000, 16]⟩
abbrev S4000000 : Shape := ⟨1, ![4000000]⟩
abbrev S_ : Shape := ⟨0, ![]⟩
abbrev S4000000x1 : Shape := ⟨2, ![4000000, 1]⟩

abbrev nBuf : Space → Nat
  | .hbm => 17
  | .vmem => 0
  | .smem => 0
  | _ => 0

abbrev bufTy : (tb : Table) → Fin (tcTables nBuf tb) → BufTy
  | .hbm, ⟨0, _⟩ => ⟨S4000000x16, .f32⟩
  | .hbm, ⟨1, _⟩ => ⟨S4000000, .i32⟩
  | .hbm, ⟨2, _⟩ => ⟨S4000000x16, .f32⟩
  | .hbm, ⟨3, _⟩ => ⟨S_, .f32⟩
  | .hbm, ⟨4, _⟩ => ⟨S4000000, .f32⟩
  | .hbm, ⟨5, _⟩ => ⟨S4000000x1, .f32⟩
  | .hbm, ⟨6, _⟩ => ⟨S4000000x1, .f32⟩
  | .hbm, ⟨7, _⟩ => ⟨S4000000x16, .f32⟩
  | .hbm, ⟨8, _⟩ => ⟨S4000000x16, .f32⟩
  | .hbm, ⟨9, _⟩ => ⟨S4000000x16, .f32⟩
  | .hbm, ⟨10, _⟩ => ⟨S4000000x16, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | _, _ => ⟨S4000000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩

abbrev nD : Nat := 1
abbrev τ : Topo := Topo.v7x

variable {F : FTy → Type} [FloatOps F]

class Facts₀ : Prop where
  reducesTo_S4000000x16_S4000000_d1 : S4000000x16.ReducesTo [1] S4000000
  h_S_ : 0 < S_.numel
  bcast_S4000000_S4000000x1_0 : S4000000.BroadcastsInDim S4000000x1 (![0] : Fin 1 → Fin S4000000x1.rank)
  bcast_S4000000x1_S4000000x16_0_1 : S4000000x1.BroadcastsInDim S4000000x16 (![0, 1] : Fin 2 → Fin S4000000x16.rank)
  reducesTo_S4000000x16_S_d0_1 : S4000000x16.ReducesTo [0, 1] S_

variable [Facts₀]

class Facts : Prop extends Facts₀ where

variable [Facts]
-- ==== Proof.KernelPieces.lean ====
/-
  What one grid point's body leaves behind, as terms over the body's arithmetic. The body keeps a running total in a
  one-entry scratch cell: at the first point it stores zero there, reads it back, adds the block's total and stores the
  sum; at every later point it adds the block's total to what the point before left. After the update it reads the
  cell once more and stores that value times the reciprocal of the element count into the output's one-entry block.
  So the scratch cell ends a point holding "previous value (zero at the first point) plus the block's total", and the
  output block holds that same value scaled. Each statement below says this for one buffer in one of the two cases;
  every store covers the whole one-entry cell, so the last store's payload is what the cell holds, and a load of the
  cell after a store reads that store's payload.
-/
import proofs.«140987_j55817394979270_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F] [Named F]

/-- The offsets of every access in the body: the origin. -/
theorem hz : (![0, 0] : Fin 2 → Nat) = fun _ => 0 := funext fun a => by fin_cases a <;> rfl

/-- A load of the whole shape after a list of stores whose LAST store covered the whole shape reads that store's
    payload, whatever the earlier stores were. -/
theorem readCov_cons_unit_zero {Val : EltTy → Type} [∀ e, Nonempty (Val e)] {sig' : RefSig} {κ : Kind} {sp : Space}
    {S : Shape} {e : EltTy} (v : View sig' κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons.mpr (Or.inl rfl), by
    show y ∈ (Rect.whole S).set; rw [Rect.set_whole]; exact Finset.mem_univ y⟩),
    View.canon_cons_unit_zero rfl, View.ld_unit_zero rfl]

/-- A later point: the scratch cell, which held `xs`, ends at the update's payload of the block and `xs`. -/
theorem scratch_B (c : Dev nD) (i : grid0.Coords) (a1 : Memref sig .tc .vmem S50000x16 .f32) (h1 : a1.IsWhole)
    (a2 : Memref sig .tc .vmem S1x1 .f32) (h2 : a2.IsWhole) (a3 : Memref sig .tc .vmem S1x1 .f32) (h3 : a3.IsWhole) (hc : ¬cond0_0 i)
    (x : Vec F S50000x16 .f32) (xs : Vec F S1x1 .f32) :
    sout0_B_0 c i a1 h1 a2 h2 a3 h3 hc x xs = k0_pay2 x xs := by
  unfold sout0_B_0
  rw [View.read_writes_eq_canon _ _ _ (scover0_B_0 c i a1 h1 a2 h2 a3 h3 hc x xs)]
  unfold kernelRun0_B
  dsimp only
  sl_unfold_words
  rw [View.canon_unit_zero hz]
  simp only [View.readAt_eq_ld, h1.read_unread, h3.read_unread, View.ld_unit_zero (S := S50000x16) hz,
    View.ld_unit_zero (S := S1x1) hz]

/-- A later point: the output block ends at the scaled value of the updated scratch cell. -/
theorem out_B (c : Dev nD) (i : grid0.Coords) (a1 : Memref sig .tc .vmem S50000x16 .f32) (h1 : a1.IsWhole)
    (a2 : Memref sig .tc .vmem S1x1 .f32) (h2 : a2.IsWhole) (a3 : Memref sig .tc .vmem S1x1 .f32) (h3 : a3.IsWhole) (hc : ¬cond0_0 i)
    (x : Vec F S50000x16 .f32) (xs : Vec F S1x1 .f32) :
    out0_B_1 c i a1 h1 a2 h2 a3 h3 hc x xs = k0_pay3 (k0_pay2 x xs) := by
  unfold out0_B_1
  rw [View.read_writes_eq_canon _ _ _ (cover0_B_1 c i a1 h1 a2 h2 a3 h3 hc x xs)]
  unfold kernelRun0_B
  dsimp only
  sl_unfold_words
  rw [View.canon_unit_zero hz, View.readCov_unit_zero (S := S1x1) _ hz]
  simp only [View.readAt_eq_ld, h1.read_unread, h3.read_unread, View.ld_unit_zero (S := S50000x16) hz,
    View.ld_unit_zero (S := S1x1) hz]

/-- The first point: the scratch cell is reset, and ends at the update's payload of the block and the reset value. -/
theorem scratch_A (c : Dev nD) (i : grid0.Coords) (a1 : Memref sig .tc .vmem S50000x16 .f32) (h1 : a1.IsWhole)
    (a2 : Memref sig .tc .vmem S1x1 .f32) (h2 : a2.IsWhole) (a3 : Memref sig .tc .vmem S1x1 .f32) (h3 : a3.IsWhole) (hc : cond0_0 i)
    (x : Vec F S50000x16 .f32) :
    sout0_A_0 c i a1 h1 a2 h2 a3 h3 hc x = k0_pay2 x (k0_pay1 (F := F)) := by
  unfold sout0_A_0
  rw [View.read_writes_eq_canon _ _ _ (scover0_A_0 c i a1 h1 a2 h2 a3 h3 hc x)]
  unfold kernelRun0_A
  dsimp only
  sl_unfold_words
  rw [View.canon_cons_unit_zero (S := S1x1) hz, View.readCov_unit_zero (S := S1x1) _ hz]
  simp only [View.readAt_eq_ld, h1.read_unread, View.ld_unit_zero (S := S50000x16) hz]

/-- The first point: the output block ends at the scaled value of the scratch cell after its first update. -/
theorem out_A (c : Dev nD) (i : grid0.Coords) (a1 : Memref sig .tc .vmem S50000x16 .f32) (h1 : a1.IsWhole)
    (a2 : Memref sig .tc .vmem S1x1 .f32) (h2 : a2.IsWhole) (a3 : Memref sig .tc .vmem S1x1 .f32) (h3 : a3.IsWhole) (hc : cond0_0 i)
    (x : Vec F S50000x16 .f32) :
    out0_A_1 c i a1 h1 a2 h2 a3 h3 hc x = k0_pay3 (k0_pay2 x (k0_pay1 (F := F))) := by
  unfold out0_A_1
  rw [View.read_writes_eq_canon _ _ _ (cover0_A_1 c i a1 h1 a2 h2 a3 h3 hc x)]
  unfold kernelRun0_A
  dsimp only
  sl_unfold_words
  rw [View.canon_unit_zero hz, readCov_cons_unit_zero (S := S1x1) _ hz, View.readCov_unit_zero (S := S1x1) _ hz]
  simp only [View.readAt_eq_ld, h1.read_unread, View.ld_unit_zero (S := S50000x16) hz]

end Cert.KernelIdeal.Pieces

end
-- ==== Proof.SphereSpec.lean ====
/-
  The mathematics both programs compute, over the extended reals. For a matrix `y` with rows of 16 entries,
  the entry `(r, j)` contributes the square of `y r j / ‖y r‖ - y r j`, where `‖y r‖` is the square root of
  the sum of the row's squares; the loss is the sum of these contributions over all rows and columns, times
  `1 / 64000000`. One side sums the 4000000 rows at once and divides by 64000000; the other sums 80 blocks of
  50000 consecutive rows one after the other into a running total and multiplies by the reciprocal. Addition on the
  extended reals is commutative and associative, so the two groupings agree (no finiteness is needed), and the
  quotient by the real 64000000 is the product with its reciprocal on every extended real.
-/
import Idealize.ShloMosaic.PureOps.Ideal
import Idealize.ShloMosaic.PureOps.Ideal.Laws
import Idealize.ShloMosaic.Lib.ValueIdx

noncomputable section

namespace Cert.SphereLoss

open Idealize.ShloMosaic Idealize.ShloMosaic.ValueIdx

/-- The sum of the squares of row `r`. -/
def rowSq {n : Nat} (y : (⟨2, ![n, 16]⟩ : Shape).Idx → EReal) (r : Fin n) : EReal :=
  ∑ k : Fin 16, y (ix2 r k) * y (ix2 r k)

/-- Entry `(r, j)`'s contribution: the square of its distance to the row's projection onto the unit sphere. -/
def sqdev {n : Nat} (y : (⟨2, ![n, 16]⟩ : Shape).Idx → EReal) (r : Fin n) (j : Fin 16) : EReal :=
  (Ideal.div (y (ix2 r j)) (Ideal.sqrt (rowSq y r)) - y (ix2 r j))
    * (Ideal.div (y (ix2 r j)) (Ideal.sqrt (rowSq y r)) - y (ix2 r j))

/-- The contributions of all entries, summed row by row. -/
def total {n : Nat} (y : (⟨2, ![n, 16]⟩ : Shape).Idx → EReal) : EReal :=
  ∑ r : Fin n, ∑ j : Fin 16, sqdev y r j

/-- Row `r` of block `t` is row `50000 t + r` of the matrix. -/
def rowOf (t : Fin 80) (r : Fin 50000) : Fin 4000000 :=
  ⟨50000 * t.val + r.val, by have := t.isLt; have := r.isLt; omega⟩

/-- Every row lies in exactly one block, at exactly one place. -/
def rowEquiv : Fin 80 × Fin 50000 ≃ Fin 4000000 where
  toFun p := rowOf p.1 p.2
  invFun R := (⟨R.val / 50000, by have := R.isLt; omega⟩, ⟨R.val % 50000, Nat.mod_lt _ (by norm_num)⟩)
  left_inv p := by
    obtain ⟨t, r⟩ := p
    have := t.isLt; have := r.isLt
    refine Prod.ext (Fin.ext ?_) (Fin.ext ?_)
    · show (50000 * t.val + r.val) / 50000 = t.val; omega
    · show (50000 * t.val + r.val) % 50000 = r.val; omega
  right_inv R := by
    refine Fin.ext ?_
    show 50000 * (R.val / 50000) + R.val % 50000 = R.val
    omega

/-- A block's entry contributes what the matrix's entry at its row does: the contribution reads its own row only. -/
theorem sqdev_block (y : (⟨2, ![4000000, 16]⟩ : Shape).Idx → EReal) (x : (⟨2, ![50000, 16]⟩ : Shape).Idx → EReal)
    (t : Fin 80) (hx : ∀ (r : Fin 50000) (j : Fin 16), x (ix2 r j) = y (ix2 (rowOf t r) j)) (r : Fin 50000) (j : Fin 16) :
    sqdev x r j = sqdev y (rowOf t r) j := by
  unfold sqdev rowSq
  simp only [hx]

/-- The blocks' totals add up to the matrix's total. -/
theorem sum_block_totals (y : (⟨2, ![4000000, 16]⟩ : Shape).Idx → EReal)
    (x : Fin 80 → (⟨2, ![50000, 16]⟩ : Shape).Idx → EReal)
    (hx : ∀ (t : Fin 80) (r : Fin 50000) (j : Fin 16), x t (ix2 r j) = y (ix2 (rowOf t r) j)) :
    ∑ t : Fin 80, total (x t) = total y := by
  unfold total
  have h1 : ∀ t : Fin 80, (∑ r : Fin 50000, ∑ j : Fin 16, sqdev (x t) r j)
      = ∑ r : Fin 50000, ∑ j : Fin 16, sqdev y (rowOf t r) j := fun t =>
    Finset.sum_congr rfl fun r _ => Finset.sum_congr rfl fun j _ => sqdev_block y (x t) t (hx t) r j
  simp only [h1]
  rw [← Equiv.sum_comp rowEquiv (fun R : Fin 4000000 => ∑ j : Fin 16, sqdev y R j), Fintype.sum_prod_type]
  rfl

/-- The running total after block `n`: the totals of blocks `0 … n`. -/
def runSum (tot : ℕ → EReal) (n : ℕ) : EReal := ∑ t ∈ Finset.range (n + 1), tot t

theorem runSum_zero (tot : ℕ → EReal) : runSum tot 0 = 0 + tot 0 := by
  unfold runSum
  rw [Finset.sum_range_one, zero_add]

theorem runSum_succ (tot : ℕ → EReal) (n : ℕ) : runSum tot (n + 1) = runSum tot n + tot (n + 1) := by
  unfold runSum
  rw [Finset.sum_range_succ]

/-- After the last of 80 blocks the running total is the sum over all blocks. -/
theorem runSum_last (tot : ℕ → EReal) : runSum tot 79 = ∑ t : Fin 80, tot t.val := by
  unfold runSum
  exact Finset.sum_range tot

/-- The divisor `64000000.0` denotes the real 64000000 (it is `15625 · 2 ^ 12`, exact in binary32). -/
theorem ofBits_64000000 : Ideal.ofBits .f32 0x4C742400#32 = ((64000000 : ℝ) : EReal) := by
  simp [Ideal.ofBits, Ideal.ieee, -EReal.coe_mul]; norm_num

/-- The mean two ways: the sum times the reciprocal of 64000000, then times a factor, is that factor times the
    quotient of (zero plus) the sum by 64000000. -/
theorem mean_eq (s one : EReal) :
    s * ((1 / 64000000 : ℝ) : EReal) * one
      = one * Ideal.div (Ideal.ofBits .f32 0x00000000#32 + s) (Ideal.ofBits .f32 0x4C742400#32) := by
  rw [ofBits_64000000, Ideal.ofBits_zero_f32, zero_add, Ideal.div_coe (by norm_num : (64000000 : ℝ) ≠ 0), mul_comm]

end Cert.SphereLoss

end
-- ==== Proof.LibColumn.lean ====
/-
  Column forms of the layout operations, read at an index written with the coordinate constructors:
  what a row reduction with `keepdims` needs. A vector `[a]` cast to a column `[a, 1]` reads, at `(i, u)`,
  the vector at `i` (the row-major position of `(i, u)` in `[a, 1]` is `i`); a column `[a, 1]` broadcast
  to `[a, b]` reads, at `(p, c)`, the column at row `p` (the unit axis contributes coordinate `0`).
-/
import Idealize.ShloMosaic.Lib.ValueLayout

namespace Cert.LibColumn

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelPayload.lean ====
/-
  The body's arithmetic over the extended reals, read at an index. The reset value is zero. The update adds to the
  scratch cell's value the block's total: the row sums of squares give each row's norm (a square root), every entry is
  divided by its row's norm, the entry is subtracted, the difference squared, the squares summed along each row and the
  row sums summed over the block's 50000 rows. The final scaling multiplies by the constant named `inv_64000000`, which
  denotes the rational 1/64000000.
-/
import proofs.«140987_j55817394979270_1_alg».proof.Proof.Gen.KernelIdeal.Skeleton
import proofs.«140987_j55817394979270_1_alg».proof.Proof.SphereSpec
import proofs.«140987_j55817394979270_1_alg».proof.Proof.LibColumn
import Idealize.ShloMosaic.Lib.Pipeline.Value
import Idealize.ShloMosaic.Lib.ValueLayout
import Idealize.ShloMosaic.PureOps.IdealRules

noncomputable section

namespace Cert.KernelIdeal.Payload

open Cert.KernelIdeal Cert.KernelIdeal.Gen Cert.SphereLoss Cert.LibColumn
open Idealize.ShloMosaic Idealize.ShloMosaic.ValueIdx

/-- The named reciprocal of the element count denotes 1/64000000. -/
theorem inv_count :
    Named.named (F := Ideal) Cert.KernelIdeal.κ "inv_64000000" (φ := .f32) 0x328637BD#32 = ((1 / 64000000 : ℝ) : EReal) :=
  IdealRules.named_const.ideal_named_scalar _ _ _ _ rfl

/-- A sum along the rows of a 50000 × 16 block, read at row `r`: the sum over the 16 columns. -/
theorem rowSum_read (v : FVec Ideal S50000x16 .f32) (h : S50000x16.Reduces [1] S50000) (r : Fin 50000) :
    multiReduction .add [1] S50000 v 0x00000000#32 h (.inl rfl) rfl (ix1 r) = ∑ k : Fin 16, v (ix2 r k) := by
  refine (Ideal.multiReduction_add_single v _ h _ _ (ix1 r)).trans ?_
  show ∑ k : Fin 16, v (h.lift (ix1 r) k) = ∑ k : Fin 16, v (ix2 r k)
  refine Finset.sum_congr rfl fun k _ => congrArg v ?_
  exact funext fun a => Fin.ext (by match a with | ⟨0, _⟩ => rfl | ⟨1, _⟩ => rfl)

/-- A sum down the one column of a 50000 × 1 array, read at its one index: the sum over the 50000 rows. -/
theorem colSum_read (w : FVec Ideal S50000x1 .f32) (h : S50000x1.Reduces [0] S1) (u : Fin 1) :
    multiReduction .add [0] S1 w 0x00000000#32 h (.inl rfl) rfl (ix1 u) = ∑ r : Fin 50000, w (ix2 r u) := by
  refine (Ideal.multiReduction_add_single w _ h _ _ (ix1 u)).trans ?_
  show ∑ r : Fin 50000, w (h.lift (ix1 u) r) = ∑ r : Fin 50000, w (ix2 r u)
  refine Finset.sum_congr rfl fun r _ => congrArg w ?_
  exact funext fun a => Fin.ext (by match a with | ⟨0, _⟩ => rfl | ⟨1, _⟩ => rfl)

/-- The reset stores zero. -/
theorem pay1_apply (i : S1x1.Idx) : k0_pay1 (F := Ideal) i = 0 := by
  unfold k0_pay1
  rw [shapeCast_self]
  exact Ideal.ofBits_zero_f32

/-- The rows' norms as the body computes them: the square root of each row's sum of squares, kept as a column. -/
def nrm (x : FVec Ideal S50000x16 .f32) : FVec Ideal S50000x1 .f32 :=
  sqrt (shapeCast S50000x1
    (multiReduction .add [1] S50000 (mulf x x) 0x00000000#32 reduces_S50000x16_S50000 (.inl rfl) rfl)
    shapeCasts_S50000_S50000x1)

/-- The square root is taken entry by entry. -/
theorem sqrt_read {s : Shape} (v : FVec Ideal s .f32) (i : s.Idx) : sqrt v i = Ideal.sqrt (v i) := rfl

theorem nrm_read (x : FVec Ideal S50000x16 .f32) (r : Fin 50000) (u : Fin 1) :
    nrm x (ix2 r u) = Ideal.sqrt (rowSq x r) := by
  unfold nrm rowSq
  rw [sqrt_read, shapeCast_a_a1_apply, rowSum_read]
  simp only [mulf_apply]

/-- Each entry's deviation from its row's projection onto the unit sphere, as the body computes it. -/
def dev (x : FVec Ideal S50000x16 .f32) : FVec Ideal S50000x16 .f32 :=
  subf (divf x (broadcastTo S50000x16 (nrm x) broadcasts_S50000x1_S50000x16)) x

theorem dev_read (x : FVec Ideal S50000x16 .f32) (r : Fin 50000) (j : Fin 16) :
    dev x (ix2 r j) = Ideal.div (x (ix2 r j)) (Ideal.sqrt (rowSq x r)) - x (ix2 r j) := by
  unfold dev
  rw [subf_apply, divf_apply, broadcastTo_a1_ab_apply, nrm_read]

/-- The update's payload, with the deviations named: the squares summed along the rows, then down the column, added to
    the cell's value. -/
theorem pay2_eq (x : FVec Ideal S50000x16 .f32) (acc : FVec Ideal S1x1 .f32) :
    k0_pay2 (F := Ideal) x acc
      = shapeCast S1x1 (addf acc (shapeCast S1x1
          (multiReduction .add [0] S1 (shapeCast S50000x1
            (multiReduction .add [1] S50000 (mulf (dev x) (dev x)) 0x00000000#32 reduces_S50000x16_S50000 (.inl rfl) rfl)
            shapeCasts_S50000_S50000x1) 0x00000000#32 reduces_S50000x1_S1 (.inl rfl) rfl)
          shapeCasts_S1_S1x1)) shapeCasts_S1x1_S1x1 := rfl

/-- The update: the cell's value plus the block's total. -/
theorem pay2_apply (x : FVec Ideal S50000x16 .f32) (acc : FVec Ideal S1x1 .f32) (i : S1x1.Idx) :
    k0_pay2 (F := Ideal) x acc i = acc i + total x := by
  obtain ⟨u, w, rfl⟩ : ∃ (u w : Fin 1), i = ix2 u w := ⟨i 0, i 1, eq_ix2 i⟩
  rw [pay2_eq, shapeCast_self, addf_apply]
  refine congrArg (acc (ix2 u w) + ·) ?_
  rw [shapeCast_a_a1_apply, colSum_read]
  unfold total
  refine Finset.sum_congr rfl fun r _ => ?_
  rw [shapeCast_a_a1_apply, rowSum_read]
  refine Finset.sum_congr rfl fun j _ => ?_
  rw [mulf_apply, dev_read]
  rfl

/-- The scaling: times 1/64000000. -/
theorem pay3_apply (v : FVec Ideal S1x1 .f32) (i : S1x1.Idx) :
    k0_pay3 (F := Ideal) v i = v i * ((1 / 64000000 : ℝ) : EReal) := by
  unfold k0_pay3
  show v i * Named.named (F := Ideal) Cert.KernelIdeal.κ "inv_64000000" (φ := .f32) 0x328637BD#32 = _
  rw [inv_count]

end Cert.KernelIdeal.Payload

end
-- ==== Proof.KernelSum.lean ====
/-
  The kernel's running total, point by point. The grid has 80 points; point `t` stages rows
  `50000 t … 50000 t + 49999` of the matrix. By induction on the point, the scratch cell after point `n` holds the
  running total of the blocks' contributions (zero plus block 0's total, then plus each later block's), and the output's
  one-entry block holds that running total times 1/64000000. After the last point the running total is the matrix's
  total, because every row lies in exactly one block.
-/
import proofs.«140987_j55817394979270_1_alg».proof.Proof.Gen.KernelIdeal.Frame
import proofs.«140987_j55817394979270_1_alg».proof.Proof.KernelPieces
import proofs.«140987_j55817394979270_1_alg».proof.Proof.KernelPayload
import proofs.«140987_j55817394979270_1_alg».proof.Proof.SphereSpec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.SphereLoss

variable (m : (ℓ : Loc nD τ sig) → Buf (Elt Ideal) ℓ) (ρ : Dev nD → PrngReg)

theorem hN : cfg0.N = 80 := N_0

/-- The block of 50000 rows the window stages at point `t`. -/
abbrev xblk (c : Dev nD) (t : Fin cfg0.N) : Vec Ideal S50000x16 .f32 := iblk m c 0 t

/-- The matrix as launched. -/
abbrev yarr (c : Dev nD) : Vec Ideal S4000000x16 .f32 := m ((c.tc : Thread nD τ).loc main_arg0)

/-- The total of block `n` (zero past the grid). -/
def tot (c : Dev nD) (n : ℕ) : EReal := if h : n < cfg0.N then total (xblk m c ⟨n, h⟩) else 0

theorem tot_of_lt (c : Dev nD) (n : ℕ) (h : n < cfg0.N) : tot m c n = total (xblk m c ⟨n, h⟩) := dif_pos h

/-- After point `n` the scratch cell holds the running total of blocks `0 … n`. -/
theorem scratch_eq (c : Dev nD) : ∀ (n : ℕ) (h : n < cfg0.N), (outsAt0 m c n h).2 = fun _ => runSum (tot m c) n
  | 0, h => by
    rw [outsAt0_A m c ⟨0, h⟩ rfl]
    dsimp only
    refine (Pieces.scratch_A (F := Ideal) c (grid0.coords ⟨0, h⟩) (ms0_0 ⟨0, h⟩) (hs0_0 ⟨0, h⟩) (ms0_1 ⟨0, h⟩) (hs0_1 ⟨0, h⟩)
      scM0_0 (Memref.isWhole_whole _) ((hcond0_0 ⟨0, h⟩).mpr rfl) (xblk m c ⟨0, h⟩)).trans ?_
    funext i
    rw [Payload.pay2_apply, Payload.pay1_apply, runSum_zero, tot_of_lt m c 0 h]
  | n + 1, h => by
    have hB : ¬(⟨n + 1, h⟩ : Fin cfg0.N).val % 80 = 0 := by have := hN; dsimp only; omega
    rw [outsAt0_B m c ⟨n + 1, h⟩ hB]
    dsimp only
    refine (Pieces.scratch_B (F := Ideal) c (grid0.coords ⟨n + 1, h⟩) (ms0_0 ⟨n + 1, h⟩) (hs0_0 ⟨n + 1, h⟩) (ms0_1 ⟨n + 1, h⟩)
      (hs0_1 ⟨n + 1, h⟩) scM0_0 (Memref.isWhole_whole _) (fun hh => hB ((hcond0_0 ⟨n + 1, h⟩).mp hh)) (xblk m c ⟨n + 1, h⟩)
      (outsAt0 m c n (Nat.lt_of_succ_lt h)).2).trans ?_
    funext i
    rw [Payload.pay2_apply, scratch_eq c n (Nat.lt_of_succ_lt h), runSum_succ, tot_of_lt m c (n + 1) h]

/-- After point `n` the output block holds the running total of blocks `0 … n` times 1/64000000. -/
theorem out_eq (c : Dev nD) : ∀ (n : ℕ) (h : n < cfg0.N),
    (outsAt0 m c n h).1 = fun _ => runSum (tot m c) n * ((1 / 64000000 : ℝ) : EReal)
  | 0, h => by
    rw [outsAt0_A m c ⟨0, h⟩ rfl]
    dsimp only
    refine (Pieces.out_A (F := Ideal) c (grid0.coords ⟨0, h⟩) (ms0_0 ⟨0, h⟩) (hs0_0 ⟨0, h⟩) (ms0_1 ⟨0, h⟩) (hs0_1 ⟨0, h⟩)
      scM0_0 (Memref.isWhole_whole _) ((hcond0_0 ⟨0, h⟩).mpr rfl) (xblk m c ⟨0, h⟩)).trans ?_
    funext i
    rw [Payload.pay3_apply, Payload.pay2_apply, Payload.pay1_apply, runSum_zero, tot_of_lt m c 0 h]
  | n + 1, h => by
    have hB : ¬(⟨n + 1, h⟩ : Fin cfg0.N).val % 80 = 0 := by have := hN; dsimp only; omega
    rw [outsAt0_B m c ⟨n + 1, h⟩ hB]
    dsimp only
    refine (Pieces.out_B (F := Ideal) c (grid0.coords ⟨n + 1, h⟩) (ms0_0 ⟨n + 1, h⟩) (hs0_0 ⟨n + 1, h⟩) (ms0_1 ⟨n + 1, h⟩)
      (hs0_1 ⟨n + 1, h⟩) scM0_0 (Memref.isWhole_whole _) (fun hh => hB ((hcond0_0 ⟨n + 1, h⟩).mp hh)) (xblk m c ⟨n + 1, h⟩)
      (outsAt0 m c n (Nat.lt_of_succ_lt h)).2).trans ?_
    funext i
    rw [Payload.pay3_apply, Payload.pay2_apply, scratch_eq m c n (Nat.lt_of_succ_lt h), runSum_succ, tot_of_lt m c (n + 1) h]

/-- Where the input window's block sits: block `t` starts at row `50000 t`, column 0 — decided over the grid. -/
theorem idx_facts : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- A grid point as a block number. -/
def pt (t : Fin cfg0.N) : Fin 80 := ⟨t.val, lt_of_lt_of_eq t.isLt hN⟩

/-- Entry `(r, j)` of the block staged at point `t` is entry `(50000 t + r, j)` of the matrix. -/
theorem xblk_read (c : Dev nD) (t : Fin cfg0.N) (r : Fin 50000) (j : Fin 16) :
    xblk m c t (ix2 r j) = yarr m c (ix2 (rowOf (pt t) r) j) := by
  have hi := idx_facts t
  show ((cfg0.win 0).blk t).view.read (Elt Ideal) (V m c (Pipeline.arrRef spec0 0)) (ix2 r j) = _
  rw [View.read_apply]
  show V m c main_arg0 (((cfg0.win 0).blk t).view.emb (ix2 r j)) = V m c main_arg0 (ix2 (rowOf (pt t) r) j)
  refine congrArg (V m c main_arg0) (funext fun a => Fin.ext ?_)
  match a with
  | ⟨0, _⟩ => show win0_0.index t 0 * 50000 + 1 * r.val = 50000 * t.val + r.val; rw [hi.1]; omega
  | ⟨1, _⟩ => show win0_0.index t 1 * 16 + 1 * j.val = j.val; rw [hi.2]; omega

/-- After the last point the running total is the matrix's total. -/
theorem runSum_total (c : Dev nD) : runSum (tot m c) 79 = total (yarr m c) := by
  rw [runSum_last]
  have h1 : ∀ t : Fin 80, tot m c t.val = total (xblk m c ⟨t.val, lt_of_lt_of_eq t.isLt hN.symm⟩) := fun t =>
    tot_of_lt m c t.val _
  simp only [h1]
  exact sum_block_totals (yarr m c) (fun t => xblk m c ⟨t.val, lt_of_lt_of_eq t.isLt hN.symm⟩)
    (fun t r j => xblk_read m c ⟨t.val, lt_of_lt_of_eq t.isLt hN.symm⟩ r j)

end Cert.KernelIdeal.Val

end
-- ==== Proof.KernelValue.lean ====
/-
  What the kernel's result holds over the extended reals. The output's one-entry block is written back to its array
  after the last grid point only, and that block is the whole array, so the array ends at what the last point left:
  the total of all 80 blocks, which is the matrix's total, times 1/64000000. The host operations after the region
  reshape that one entry to a scalar and multiply it by the constant one. The two steps that only move a value around
  (the write-back of a block whose entries all hold one value, and the reshape and product of an array whose one
  entry holds a value) are stated for an arbitrary value.
-/
import proofs.«140987_j55817394979270_1_alg».proof.Proof.KernelSum

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.SphereLoss

variable (m : (ℓ : Loc nD τ sig) → Buf (Elt Ideal) ℓ) (ρ : Dev nD → PrngReg)

/-- The last grid point. -/
def tLast : Fin cfg0.N := ⟨79, by rw [hN]; decide⟩

/-- What the output array ends holding: the matrix's total times 1/64000000, at its one entry. -/
abbrev outArr (c : Dev nD) : Buf (Elt Ideal) ((cfg0.win 1).arr.view.loc (c.tc : Thread nD τ)) :=
  fun _ => total (yarr m c) * ((1 / 64000000 : ℝ) : EReal)

/-- A staging block whose entries all hold `K` writes back what the array's block reads of an array holding `K`. -/
theorem cut_const (t : Fin cfg0.N) (K : EReal) :
    (cfg0.win 1).cut (grid0.coords t) (fun _ => K)
      = ((cfg0.win 1).blk t).view.read (Elt Ideal) (fun _ => K) := by
  funext y
  rw [View.read_apply]
  rfl

/-- The one write-back, after the last point, writes the total of all blocks, scaled. -/
theorem flushed_eq (c : Dev nD) (t : Fin cfg0.N) (hf : (cfg0.win 1).flush t = true) :
    (dats m 0 c).flushed 1 t = ((cfg0.win 1).blk t).view.read (Elt Ideal) (outArr m c) := by
  have h79 : t.val = 79 := by have := (flush0_1 t).mp hf; have := t.isLt; have := hN; omega
  show (cfg0.win 1).cut (grid0.coords t) ((dats m 0 c).after 1 t) = _
  rw [after0_1, out_eq, h79, runSum_total]
  exact cut_const t _

/-- The output array's one entry lies in the block the last point writes back, so the array ends at that value. -/
theorem final_o (c : Dev nD) : (dats m 0 c).arrAt 1 cfg0.N = outArr m c :=
  (dats m 0 c).arrAt_eq_of_cover 1 (outArr m c) (flushed_eq m c) fun i =>
    ⟨tLast, (flush0_1 tLast).mpr rfl, by
      show i ∈ ((View.whole main_v0).slice (win0_1.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_1.index tLast 0 * win0_1.size 0 ≤ (i 0 : Nat)
          ∧ (i 0 : Nat) < win0_1.index tLast 0 * win0_1.size 0 + win0_1.xsize (grid0.coords tLast) 0
        rw [show win0_1.index tLast 0 * win0_1.size 0 = 0 from by decide +kernel,
          show win0_1.xsize (grid0.coords tLast) 0 = 1 from by decide +kernel]
        omega
      | ⟨1, _⟩ =>
        show win0_1.index tLast 1 * win0_1.size 1 ≤ (i 1 : Nat)
          ∧ (i 1 : Nat) < win0_1.index tLast 1 * win0_1.size 1 + win0_1.xsize (grid0.coords tLast) 1
        rw [show win0_1.index tLast 1 * win0_1.size 1 = 0 from by decide +kernel,
          show win0_1.xsize (grid0.coords tLast) 1 = 1 from by decide +kernel]
        omega⟩

/-- The program's result: the scaled total, times the constant one the host multiplies by. -/
abbrev res (c : Dev nD) : Buf (Elt Ideal) ((c.tc : Thread nD τ).loc main_v2) :=
  fun _ => total (yarr m c) * ((1 / 64000000 : ℝ) : EReal) * Ideal.ofBits .f32 0x3F800000#32

/-- The host operations after the region, applied to an output array whose one entry holds `K`: the reshape reads that
    entry, and the product multiplies it by the constant one. -/
theorem tail_const (c : Dev nD) (K : EReal) (hK : (dats m 0 c).arrAt 1 cfg0.N = fun _ => K) :
    Pipeline.afterTail₀ cfgs (dats m) 0 (V0 m) [hostOps1] c main_v2
      = fun _ => K * Ideal.ofBits .f32 0x3F800000#32 := by
  unfold Pipeline.afterTail₀
  show StableHlo.after hostOps1 _ (Proc.devRef .tc main_v2) = _
  after_results
  have harr : Pipeline.withArrays (cfgs 0).spec c (V0 m c) (fun w => (dats m 0 c).arrAt w (cfgs 0).N)
      (Proc.devRef .tc main_v0) = fun _ => K :=
    (Pipeline.withArrays_arr spec0 launch0.win.arr_inj c _ _ 1).trans hK
  rw [harr]
  funext i
  rfl

theorem tail_eq (c : Dev nD) :
    Pipeline.afterTail₀ cfgs (dats m) 0 (V0 m) [hostOps1] c main_v2 = res m c :=
  tail_const m c _ (final_o m c)

/-- The run, read: the result at the scaled total times one, the arguments unchanged. -/
theorem run : θ_run defs (onTc (τ := τ) (main (F := Ideal))) ⟨m, fun _ => 0, ρ⟩ fun r => ∀ c : Dev nD,
      r.2.mem ((c.tc : Thread nD τ).loc main_v2) = res m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Val

end
-- ==== Proof.RefValue.lean ====
/-
  The reference's result over the extended reals. Its entry `(R, j)` before the final sum is the contribution of
  entry `(R, j)`: the row's norm is the square root of zero plus the sum of the row's squares, the entry is divided by
  it, the entry subtracted and the difference squared. The result is one times the quotient, by 64000000, of zero plus
  the sum of the contributions over every index of the matrix, which is the sum row by row.
-/
import proofs.«140987_j55817394979270_1_alg».proof.Proof.Gen.ReferenceIdeal.Read
import proofs.«140987_j55817394979270_1_alg».proof.Proof.SphereSpec

noncomputable section

namespace Cert.ReferenceIdeal.RefValue

open Cert.ReferenceIdeal Cert.ReferenceIdeal.Gen Cert.ReferenceIdeal.Read Cert.SphereLoss
open Idealize.ShloMosaic Idealize.ShloMosaic.ValueIdx

/-- The norm that entry `(R, j)` is divided by sums the squares of row `R`: column `k` of that sum is entry `(R, k)`. -/
theorem row_idx (R : Fin 4000000) (j k : Fin 16) :
    idx_main_call0_v1 (idx_main_call0_v2 (idx_main_v1 (ix2 R j))) k = ix2 R k :=
  funext fun a => Fin.ext (by match a with | ⟨0, _⟩ => rfl | ⟨1, _⟩ => rfl)

/-- Before the final sum, entry `(R, j)` is its contribution. -/
theorem entry (y : FVec Ideal S4000000x16 .f32) (R : Fin 4000000) (j : Fin 16) :
    val_main_v4 (F := Ideal) y (ix2 R j) = sqdev y R j := by
  rw [val_main_v4_apply, val_main_v3_apply, val_main_v2_apply, val_main_v1_apply, val_main_v0_apply,
    val_main_call0_v2_apply, val_main_call0_v1_apply]
  simp only [val_main_call0_v0_apply, val_main_call0_cst_apply, row_idx, Ideal.mulf_def, Ideal.subf_def,
    Ideal.hostDivf_def, Ideal.hostUnary_sqrt_def, Ideal.ofBits_def, Ideal.ofBits_zero_f32, zero_add]
  rfl

/-- The result: one times the quotient of (zero plus) the total by 64000000. -/
theorem result (y : FVec Ideal S4000000x16 .f32) (i : S_.Idx) :
    val_main_v7 (F := Ideal) y i
      = Ideal.ofBits .f32 0x3F800000#32
        * Ideal.div (Ideal.ofBits .f32 0x00000000#32 + total y) (Ideal.ofBits .f32 0x4C742400#32) := by
  rw [val_main_v7_apply, val_main_v6_apply, val_main_v5_apply, sum_idx2]
  simp only [entry, val_main_cst_apply, val_main_cst_0_apply, val_main_cst_1_apply, Ideal.mulf_def, Ideal.hostDivf_def,
    Ideal.ofBits_def]
  rfl

end Cert.ReferenceIdeal.RefValue

end
-- ==== Proof.lean ====
/-
  The loss of projecting every row of a 4000000 × 16 matrix onto the unit sphere: the mean, over all 64000000 entries,
  of the squared difference between an entry divided by its row's norm and the entry itself, times one.

  The kernel walks the matrix in 80 blocks of 50000 rows, keeps a running total of the squared differences in a
  one-entry scratch cell (reset at the first block), and after every block writes the running total times the
  reciprocal of 64000000 into its one-entry output, which is written back after the last block; the host then reshapes
  that entry to a scalar and multiplies it by one. The reference computes all row norms at once, sums the squared
  differences over the whole matrix, divides by 64000000 and multiplies one by the quotient.

  Over the extended reals both are the same number. Entry by entry the two compute one expression (the same sum of the
  row's squares under the same square root, the same quotient, difference and square). The kernel's grouping of the sum
  (by column, then by row within a block, then block after block) is a regrouping of the reference's single sum, and
  addition of extended reals is commutative and associative, so no finiteness is needed. The reciprocal the kernel
  multiplies by is named and denotes exactly 1/64000000, and dividing an extended real by the real 64000000 is
  multiplying it by that reciprocal; the factor one sits on the other side of a commutative product.

  The two kernels' frames are the generated ones; the reference's frame is its generated run with the result dropped;
  the one ledger entry is the named constant's statement.
-/
import proofs.«140987_j55817394979270_1_alg».proof.Defs
import proofs.«140987_j55817394979270_1_alg».proof.Proof.Gen.Kernel
import proofs.«140987_j55817394979270_1_alg».proof.Proof.Gen.Kernel.Skeleton
import proofs.«140987_j55817394979270_1_alg».proof.Proof.Gen.Kernel.Launch
import proofs.«140987_j55817394979270_1_alg».proof.Proof.Gen.Kernel.Points
import proofs.«140987_j55817394979270_1_alg».proof.Proof.Gen.Kernel.Frame
import proofs.«140987_j55817394979270_1_alg».proof.Proof.Gen.KernelIdeal
import proofs.«140987_j55817394979270_1_alg».proof.Proof.Gen.KernelIdeal.Skeleton
import proofs.«140987_j55817394979270_1_alg».proof.Proof.Gen.KernelIdeal.Launch
import proofs.«140987_j55817394979270_1_alg».proof.Proof.Gen.KernelIdeal.Points
import proofs.«140987_j55817394979270_1_alg».proof.Proof.Gen.KernelIdeal.Frame
import proofs.«140987_j55817394979270_1_alg».proof.Proof.Gen.ReferenceIdeal
import proofs.«140987_j55817394979270_1_alg».proof.Proof.Gen.Pre_finite_inputs
import proofs.«140987_j55817394979270_1_alg».proof.Proof.Gen.ReferenceIdeal.Run
import proofs.«140987_j55817394979270_1_alg».proof.Proof.Gen.ReferenceIdeal.Read
import proofs.«140987_j55817394979270_1_alg».proof.Proof.KernelValue
import proofs.«140987_j55817394979270_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: the reciprocal of the element count is named, and denotes 1/64000000. -/
theorem preserves : Cert.preserves_Kernel_KernelIdeal :=
  IdealRules.named_const.statement Cert.KernelIdeal.κ "inv_64000000" .f32 0x328637BD#32 ((1 / 64000000 : ℝ) : EReal) rfl

/-- Both programs end at the matrix's total times 1/64000000 times one: the kernel by its running total, the reference
    as one times the quotient of the total by 64000000. -/
theorem algebraic : Cert.algebraic_KernelIdeal_ReferenceIdeal := by
  intro m ρ m' ρ' _ hagree
  refine ⟨fun c => Cert.KernelIdeal.Val.res m c, Cert.KernelIdeal.Val.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v7_eq, (hagree c).1]
  funext i
  rw [Cert.ReferenceIdeal.RefValue.result]
  exact (Cert.SphereLoss.mean_eq (Cert.SphereLoss.total (Cert.KernelIdeal.Val.yarr m c)) (Ideal.ofBits .f32 0x3F800000#32)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
